-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048 : Shape := ⟨2, ![32, 2048]⟩
abbrev S50000x100 : Shape := ⟨2, ![50000, 100]⟩
abbrev S100x100 : Shape := ⟨2, ![100, 100]⟩
abbrev S100 : Shape := ⟨1, ![100]⟩
abbrev S_ : Shape := ⟨0, ![]⟩

class Facts : Prop where
  bcast_S_S50000x100 : S_.BroadcastsInDim S50000x100 (![] : Fin 0 → Fin S50000x100.rank)
  reducesTo_S50000x100_S_d0_1 : S50000x100.ReducesTo [0, 1] S_
  h_S_ : 0 < S_.numel
  bcast_S_S100x100 : S_.BroadcastsInDim S100x100 (![] : Fin 0 → Fin S100x100.rank)
  reducesTo_S100x100_S_d0_1 : S100x100.ReducesTo [0, 1] S_
  bcast_S_S100 : S_.BroadcastsInDim S100 (![] : Fin 0 → Fin S100.rank)
  reducesTo_S100_S_d0 : S100.ReducesTo [0] S_

variable [Facts]

def fn {F : FTy → Type} [FloatOps F] (main_arg0 : IVec S32x2048 32) (main_arg1 : FVec F S50000x100 .f32) (main_arg2 : FVec F S100x100 .f32) (main_arg3 : FVec F S100 .f32) : IVec S_ 1 :=
  let main_v0 : FVec F S50000x100 .f32 := Host.absf main_arg1
  let main_cst : FVec F S_ .f32 := constant S_ .f32 0x7F800000#32
  let main_v1 : FVec F S50000x100 .f32 := broadcastInDim S50000x100 ![] bcast_S_S50000x100 main_cst
  let main_v2 : IVec S50000x100 1 := cmpf .olt main_v0 main_v1
  let main_c : IVec S_ 1 := constantI S_ 1 1#1
  let main_v3 : IVec S_ 1 := (fun x v => Host.reduce IntOp.andi x v reducesTo_S50000x100_S_d0_1 h_S_) main_v2 main_c
  let main_v4 : FVec F S100x100 .f32 := Host.absf main_arg2
  let main_cst_0 : FVec F S_ .f32 := constant S_ .f32 0x7F800000#32
  let main_v5 : FVec F S100x100 .f32 := broadcastInDim S100x100 ![] bcast_S_S100x100 main_cst_0
  let main_v6 : IVec S100x100 1 := cmpf .olt main_v4 main_v5
  let main_c_1 : IVec S_ 1 := constantI S_ 1 1#1
  let main_v7 : IVec S_ 1 := (fun x v => Host.reduce IntOp.andi x v reducesTo_S100x100_S_d0_1 h_S_) main_v6 main_c_1
  let main_v8 : IVec S_ 1 := andi main_v3 main_v7
  let main_v9 : FVec F S100 .f32 := Host.absf main_arg3
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  main_v13
-- ==== Kernel.lean ====
abbrev S32x2048 : Shape := ⟨2, ![32, 2048]⟩
abbrev S50000x100 : Shape := ⟨2, ![50000, 100]⟩
abbrev S100x100 : Shape := ⟨2, ![100, 100]⟩
abbrev S100 : Shape := ⟨1, ![100]⟩
abbrev S_ : Shape := ⟨0, ![]⟩
abbrev S32x2048x1 : Shape := ⟨3, ![32, 2048, 1]⟩
abbrev S32x2048x100 : Shape := ⟨3, ![32, 2048, 100]⟩
abbrev S1x100 : Shape := ⟨2, ![1, 100]⟩
abbrev S1x2048x100 : Shape := ⟨3, ![1, 2048, 100]⟩
abbrev S2048x100 : Shape := ⟨2, ![2048, 100]⟩

abbrev nBuf : Space → Nat
  | .hbm => 15
  | .vmem => 6
  | .smem => 0
  | _ => 0

abbrev bufTy : (tb : Table) → Fin (tcTables nBuf tb) → BufTy
  | .hbm, ⟨0, _⟩ => ⟨S32x2048, .i32⟩
  | .hbm, ⟨1, _⟩ => ⟨S50000x100, .f32⟩
  | .hbm, ⟨2, _⟩ => ⟨S100x100, .f32⟩
  | .hbm, ⟨3, _⟩ => ⟨S100, .f32⟩
  | .hbm, ⟨4, _⟩ => ⟨S_, .i32⟩
  | .hbm, ⟨5, _⟩ => ⟨S32x2048, .i32⟩
  | .hbm, ⟨6, _⟩ => ⟨S32x2048, .i1⟩
  | .hbm, ⟨7, _⟩ => ⟨S_, .i32⟩
  | .hbm, ⟨8, _⟩ => ⟨S32x2048, .i32⟩
  | .hbm, ⟨9, _⟩ => ⟨S32x2048, .i32⟩
  | .hbm, ⟨10, _⟩ => ⟨S32x2048, .i32⟩
  | .hbm, ⟨11, _⟩ => ⟨S32x2048x1, .i32⟩
  | .hbm, ⟨12, _⟩ => ⟨S32x2048x100, .f32⟩
  | .hbm, ⟨13, _⟩ => ⟨S1x100, .f32⟩
  | .hbm, ⟨14, _⟩ => ⟨S32x2048x100, .f32⟩
  | .local _ .vmem, ⟨0, _⟩ => ⟨S1x2048x100, .f32⟩
  | .local _ .vmem, ⟨1, _⟩ => ⟨S1x2048x100, .f32⟩
  | .local _ .vmem, ⟨2, _⟩ => ⟨S100x100, .f32⟩
  | .local _ .vmem, ⟨3, _⟩ => ⟨S1x100, .f32⟩
  | .local _ .vmem, ⟨4, _⟩ => ⟨S1x2048x100, .f32⟩
  | .local _ .vmem, ⟨5, _⟩ => ⟨S1x2048x100, .f32⟩
  | _, _ => ⟨S32x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  shapeCasts_S100_S1x100 : S100.ShapeCasts S1x100
  inb_S1x2048x100_S1x2048x100_0_0_0 : ∀ a, (![0, 0, 0] : Fin 3 → Nat) a + S1x2048x100.size a ≤ S1x2048x100.size a
  h_S1x2048x100 : 0 < S1x2048x100.numel
  shapeCasts_S1x2048x100_S2048x100 : S1x2048x100.ShapeCasts S2048x100
  bitsLt_bf16_f32 : FTy.bits .bf16 < FTy.bits .f32
  inb_S100x100_S100x100_0_0 : ∀ a, (![0, 0] : Fin 2 → Nat) a + S100x100.size a ≤ S100x100.size a
  h_S100x100 : 0 < S100x100.numel
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S2048x100 : S1x100.Broadcasts S2048x100
  shapeCasts_S2048x100_S1x2048x100 : S2048x100.ShapeCasts S1x2048x100
  gather_S50000x100_S32x2048x1_S32x2048x100_2_0_n_n_0_2_1100_wf : GatherDims.WF S50000x100 S32x2048x1 S32x2048x100 [2] [0] [] [0] [] 2 ![1, 100]
  dot_S2048x100_S100x100_S2048x100_1_1_0_0_n_n_wf : DotDims.WF S2048x100 S100x100 S2048x100 [1] [1] [0] [0] [] []
  dot_S2048x100_S2048x100_S100x100_0_0_1_1_n_n_wf : DotDims.WF S2048x100 S2048x100 S100x100 [0] [0] [1] [1] [] []
  dot_S2048x100_S100x100_S2048x100_1_0_0_1_n_n_wf : DotDims.WF S2048x100 S100x100 S2048x100 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x100.size a ≤ S32x2048x100.size a
  hwx0_0 : ∀ i : grid0.Coords, EltTy.bits .f32 = 32 ∨ (Rect.block (s := S32x2048x100) S1x2048x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x100.size a ≤ S100x100.size a
  hwx0_1 : ∀ i : grid0.Coords, EltTy.bits .f32 = 32 ∨ (Rect.block (s := S100x100) S100x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x100.size a ≤ S1x100.size a
  hwx0_2 : ∀ i : grid0.Coords, EltTy.bits .f32 = 32 ∨ (Rect.block (s := S1x100) S1x100.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x100.size a ≤ S32x2048x100.size a
  hwx0_3 : ∀ i : grid0.Coords, EltTy.bits .f32 = 32 ∨ (Rect.block (s := S32x2048x100) S1x2048x100.size (cc0_transform_3 i) (hinb0_3 i)).WholeWords (EltTy.packing .f32)

variable [Facts₀]

def gather_S50000x100_S32x2048x1_S32x2048x100_2_0_n_n_0_2_1100 : GatherDims S50000x100 S32x2048x1 S32x2048x100 where
  offsetDims := [2]
  collapsedSliceDims := [0]
  operandBatchingDims := []
  startIndicesBatchingDims := []
  startIndexMap := [0]
  indexVectorDim := 2
  sliceSizes := ![1, 100]
  wf := gather_S50000x100_S32x2048x1_S32x2048x100_2_0_n_n_0_2_1100_wf
def dot_S2048x100_S100x100_S2048x100_1_1_0_0_n_n : DotDims S2048x100 S100x100 S2048x100 where
  lhsContracting := [1]
  rhsContracting := [1]
  lhsNonContracting := [0]
  rhsNonContracting := [0]
  lhsBatch := []
  rhsBatch := []
  wf := dot_S2048x100_S100x100_S2048x100_1_1_0_0_n_n_wf
def dot_S2048x100_S2048x100_S100x100_0_0_1_1_n_n : DotDims S2048x100 S2048x100 S100x100 where
  lhsContracting := [0]
  rhsContracting := [0]
  lhsNonContracting := [1]
  rhsNonContracting := [1]
  lhsBatch := []
  rhsBatch := []
  wf := dot_S2048x100_S2048x100_S100x100_0_0_1_1_n_n_wf
def dot_S2048x100_S100x100_S2048x100_1_0_0_1_n_n : DotDims S2048x100 S100x100 S2048x100 where
  lhsContracting := [1]
  rhsContracting := [0]
  lhsNonContracting := [0]
  rhsNonContracting := [1]
  lhsBatch := []
  rhsBatch := []
  wf := dot_S2048x100_S100x100_S2048x100_1_0_0_1_n_n_wf

abbrev win0_0 : Pipeline.Window sig grid0 :=
  Pipeline.Window.ofSpec (Memref.whole main_v6) S1x2048x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S100x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x2048x100.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x2048 : Shape := ⟨2, ![32, 2048]⟩
abbrev S50000x100 : Shape := ⟨2, ![50000, 100]⟩
abbrev S100x100 : Shape := ⟨2, ![100, 100]⟩
abbrev S100 : Shape := ⟨1, ![100]⟩
abbrev S_ : Shape := ⟨0, ![]⟩
abbrev S32x2048x1 : Shape := ⟨3, ![32, 2048, 1]⟩
abbrev S32x2048x100 : Shape := ⟨3, ![32, 2048, 100]⟩
abbrev S1x1x100 : Shape := ⟨3, ![1, 1, 100]⟩
abbrev S32x2048x2048 : Shape := ⟨3, ![32, 2048, 2048]⟩

abbrev nBuf : Space → Nat
  | .hbm => 19
  | .vmem => 0
  | .smem => 0
  | _ => 0

abbrev bufTy : (tb : Table) → Fin (tcTables nBuf tb) → BufTy
  | .hbm, ⟨0, _⟩ => ⟨S32x2048, .i32⟩
  | .hbm, ⟨1, _⟩ => ⟨S50000x100, .f32⟩
  | .hbm, ⟨2, _⟩ => ⟨S100x100, .f32⟩
  | .hbm, ⟨3, _⟩ => ⟨S100, .f32⟩
  | .hbm, ⟨4, _⟩ => ⟨S_, .i32⟩
  | .hbm, ⟨5, _⟩ => ⟨S32x2048, .i32⟩
  | .hbm, ⟨6, _⟩ => ⟨S32x2048, .i1⟩
  | .hbm, ⟨7, _⟩ => ⟨S_, .i32⟩
  | .hbm, ⟨8, _⟩ => ⟨S32x2048, .i32⟩
  | .hbm, ⟨9, _⟩ => ⟨S32x2048, .i32⟩
  | .hbm, ⟨10, _⟩ => ⟨S32x2048, .i32⟩
  | .hbm, ⟨11, _⟩ => ⟨S32x2048x1, .i32⟩
  | .hbm, ⟨12, _⟩ => ⟨S32x2048x100, .f32⟩
  | .hbm, ⟨13, _⟩ => ⟨S32x2048x100, .f32⟩
  | .hbm, ⟨14, _⟩ => ⟨S1x1x100, .f32⟩
  | .hbm, ⟨15, _⟩ => ⟨S32x2048x100, .f32⟩
  | .hbm, ⟨16, _⟩ => ⟨S32x2048x100, .f32⟩
  | .hbm, ⟨17, _⟩ => ⟨S32x2048x2048, .f32⟩
  | .hbm, ⟨18, _⟩ => ⟨S32x2048x100, .f32⟩
  | _, _ => ⟨S32x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S100_S1x1x100_2 : S100.BroadcastsInDim S1x1x100 (![2] : Fin 1 → Fin S1x1x100.rank)
  bcast_S1x1x100_S32x2048x100_0_1_2 : S1x1x100.BroadcastsInDim S32x2048x100 (![0, 1, 2] : Fin 3 → Fin S32x2048x100.rank)
  gather_S50000x100_S32x2048x1_S32x2048x100_2_0_n_n_0_2_1100_wf : GatherDims.WF S50000x100 S32x2048x1 S32x2048x100 [2] [0] [] [0] [] 2 ![1, 100]
  dot_S32x2048x100_S100x100_S32x2048x100_2_1_01_0_n_n_wf : DotDims.WF S32x2048x100 S100x100 S32x2048x100 [2] [1] [0, 1] [0] [] []
  dot_S32x2048x100_S32x2048x100_S32x2048x2048_2_2_1_1_0_0_wf : DotDims.WF S32x2048x100 S32x2048x100 S32x2048x2048 [2] [2] [1] [1] [0] [0]
  dot_S32x2048x2048_S32x2048x100_S32x2048x100_2_1_1_2_0_0_wf : DotDims.WF S32x2048x2048 S32x2048x100 S32x2048x100 [2] [1] [1] [2] [0] [0]

variable [Facts₀]

def gather_S50000x100_S32x2048x1_S32x2048x100_2_0_n_n_0_2_1100 : GatherDims S50000x100 S32x2048x1 S32x2048x100 where
  offsetDims := [2]
  collapsedSliceDims := [0]
  operandBatchingDims := []
  startIndicesBatchingDims := []
  startIndexMap := [0]
  indexVectorDim := 2
  sliceSizes := ![1, 100]
  wf := gather_S50000x100_S32x2048x1_S32x2048x100_2_0_n_n_0_2_1100_wf
def dot_S32x2048x100_S100x100_S32x2048x100_2_1_01_0_n_n : DotDims S32x2048x100 S100x100 S32x2048x100 where
  lhsContracting := [2]
  rhsContracting := [1]
  lhsNonContracting := [0, 1]
  rhsNonContracting := [0]
  lhsBatch := []
  rhsBatch := []
  wf := dot_S32x2048x100_S100x100_S32x2048x100_2_1_01_0_n_n_wf
def dot_S32x2048x100_S32x2048x100_S32x2048x2048_2_2_1_1_0_0 : DotDims S32x2048x100 S32x2048x100 S32x2048x2048 where
  lhsContracting := [2]
  rhsContracting := [2]
  lhsNonContracting := [1]
  rhsNonContracting := [1]
  lhsBatch := [0]
  rhsBatch := [0]
  wf := dot_S32x2048x100_S32x2048x100_S32x2048x2048_2_2_1_1_0_0_wf
def dot_S32x2048x2048_S32x2048x100_S32x2048x100_2_1_1_2_0_0 : DotDims S32x2048x2048 S32x2048x100 S32x2048x100 where
  lhsContracting := [2]
  rhsContracting := [1]
  lhsNonContracting := [1]
  rhsNonContracting := [2]
  lhsBatch := [0]
  rhsBatch := [0]
  wf := dot_S32x2048x2048_S32x2048x100_S32x2048x100_2_1_1_2_0_0_wf

class Facts : Prop extends Facts₀ where

variable [Facts]
-- ==== Proof.Products.lean ====
/-
  The kernel body's three matrix products, each read at one output entry as a plain finite sum over its contraction axis
  (at the exact instance a product into a zero accumulator is just that sum):
    · the query projection  h · Wᵀ   contracts the hidden axis of both operands:  out[s, o] = ∑ k, l[s, k] · r[o, k];
    · the Gram matrix       hᵀ · h   contracts the sequence axis of both:         out[d, e] = ∑ j, l[j, d] · r[j, e];
    · the output            q · gram contracts q's hidden axis with gram's rows:  out[s, e] = ∑ d, l[s, d] · r[d, e].
  For each product the operand indices at an output index and a contraction index are read off the dimension numbers one axis
  at a time, and the sum over the one-axis contraction shape is re-indexed by that axis' coordinate.
-/
import proofs.«168941_j69063074120430_1_alg».proof.Proof.Gen.KernelIdeal
import Idealize.ShloMosaic.Lib.ValueIdx
import Idealize.ShloMosaic.PureOps.Ideal.Laws

noncomputable section

namespace Cert.KernelIdeal.Products

open Cert.KernelIdeal Cert.KernelIdeal.Gen Idealize.ShloMosaic Idealize.ShloMosaic.ValueIdx

/-! ## The query projection `h · Wᵀ` -/

theorem lhs_proj_0 (i : S2048x100.Idx) (q : dot_S2048x100_S100x100_S2048x100_1_1_0_0_n_n.contr.Idx) :
    (dot_S2048x100_S100x100_S2048x100_1_1_0_0_n_n.lhsIdx i q 0).val = (i 0).val := by
  unfold DotDims.lhsIdx
  rw [dif_neg (show ¬(0 : Fin S2048x100.rank) ∈ dot_S2048x100_S100x100_S2048x100_1_1_0_0_n_n.lhsBatch by decide), dif_pos (show (0 : Fin S2048x100.rank) ∈ dot_S2048x100_S100x100_S2048x100_1_1_0_0_n_n.lhsNonContracting by decide)]
  rfl
theorem lhs_proj_1 (i : S2048x100.Idx) (q : dot_S2048x100_S100x100_S2048x100_1_1_0_0_n_n.contr.Idx) :
    (dot_S2048x100_S100x100_S2048x100_1_1_0_0_n_n.lhsIdx i q 1).val = (q ⟨0, by decide⟩).val :=
  dot_S2048x100_S100x100_S2048x100_1_1_0_0_n_n.lhsIdx_val_of_single rfl i q
theorem rhs_proj_0 (i : S2048x100.Idx) (q : dot_S2048x100_S100x100_S2048x100_1_1_0_0_n_n.contr.Idx) :
    (dot_S2048x100_S100x100_S2048x100_1_1_0_0_n_n.rhsIdx i q 0).val = (i 1).val := by
  unfold DotDims.rhsIdx
  rw [dif_neg (show ¬(0 : Fin S100x100.rank) ∈ dot_S2048x100_S100x100_S2048x100_1_1_0_0_n_n.rhsBatch by decide), dif_pos (show (0 : Fin S100x100.rank) ∈ dot_S2048x100_S100x100_S2048x100_1_1_0_0_n_n.rhsNonContracting by decide)]
  rfl
theorem rhs_proj_1 (i : S2048x100.Idx) (q : dot_S2048x100_S100x100_S2048x100_1_1_0_0_n_n.contr.Idx) :
    (dot_S2048x100_S100x100_S2048x100_1_1_0_0_n_n.rhsIdx i q 1).val = (q ⟨0, by decide⟩).val :=
  dot_S2048x100_S100x100_S2048x100_1_1_0_0_n_n.rhsIdx_val_of_single rfl i q

/-- `(l · rᵀ)[s, o] = ∑ k, l[s, k] · r[o, k]`. -/
theorem proj_apply {φ₁ φ₂ : FTy} (l : FVec Ideal S2048x100 φ₁) (r : FVec Ideal S100x100 φ₂) (s : Fin 2048) (o : Fin 100) :
    matmul dot_S2048x100_S100x100_S2048x100_1_1_0_0_n_n none l r (constant (F := Ideal) S2048x100 .f32 0x00000000#32) (ix2 s o)
      = ∑ k : Fin 100, l (ix2 s k) * r (ix2 o k) := by
  simp only [matmul]
  rw [Ideal.matmul_constant_zero_apply, ← Equiv.sum_comp (contrEquiv1 dot_S2048x100_S100x100_S2048x100_1_1_0_0_n_n 100 rfl rfl).symm]
  refine Finset.sum_congr rfl fun k _ => ?_
  have hk := contrEquiv1_symm_val dot_S2048x100_S100x100_S2048x100_1_1_0_0_n_n 100 rfl rfl k
  have el : dot_S2048x100_S100x100_S2048x100_1_1_0_0_n_n.lhsIdx (ix2 s o) ((contrEquiv1 dot_S2048x100_S100x100_S2048x100_1_1_0_0_n_n 100 rfl rfl).symm k) = ix2 s k := funext fun a => Fin.ext (by
    match a with
    | ⟨0, _⟩ => exact lhs_proj_0 _ _
    | ⟨1, _⟩ => exact (lhs_proj_1 _ _).trans hk)
  have er : dot_S2048x100_S100x100_S2048x100_1_1_0_0_n_n.rhsIdx (ix2 s o) ((contrEquiv1 dot_S2048x100_S100x100_S2048x100_1_1_0_0_n_n 100 rfl rfl).symm k) = ix2 o k := funext fun a => Fin.ext (by
    match a with
    | ⟨0, _⟩ => exact rhs_proj_0 _ _
    | ⟨1, _⟩ => exact (rhs_proj_1 _ _).trans hk)
  rw [el, er]

/-! ## The Gram matrix `hᵀ · h` -/

theorem lhs_gram_0 (i : S100x100.Idx) (q : dot_S2048x100_S2048x100_S100x100_0_0_1_1_n_n.contr.Idx) :
    (dot_S2048x100_S2048x100_S100x100_0_0_1_1_n_n.lhsIdx i q 0).val = (q ⟨0, by decide⟩).val :=
  dot_S2048x100_S2048x100_S100x100_0_0_1_1_n_n.lhsIdx_val_of_single rfl i q
theorem lhs_gram_1 (i : S100x100.Idx) (q : dot_S2048x100_S2048x100_S100x100_0_0_1_1_n_n.contr.Idx) :
    (dot_S2048x100_S2048x100_S100x100_0_0_1_1_n_n.lhsIdx i q 1).val = (i 0).val := by
  unfold DotDims.lhsIdx
  rw [dif_neg (show ¬(1 : Fin S2048x100.rank) ∈ dot_S2048x100_S2048x100_S100x100_0_0_1_1_n_n.lhsBatch by decide), dif_pos (show (1 : Fin S2048x100.rank) ∈ dot_S2048x100_S2048x100_S100x100_0_0_1_1_n_n.lhsNonContracting by decide)]
  rfl
theorem rhs_gram_0 (i : S100x100.Idx) (q : dot_S2048x100_S2048x100_S100x100_0_0_1_1_n_n.contr.Idx) :
    (dot_S2048x100_S2048x100_S100x100_0_0_1_1_n_n.rhsIdx i q 0).val = (q ⟨0, by decide⟩).val :=
  dot_S2048x100_S2048x100_S100x100_0_0_1_1_n_n.rhsIdx_val_of_single rfl i q
theorem rhs_gram_1 (i : S100x100.Idx) (q : dot_S2048x100_S2048x100_S100x100_0_0_1_1_n_n.contr.Idx) :
    (dot_S2048x100_S2048x100_S100x100_0_0_1_1_n_n.rhsIdx i q 1).val = (i 1).val := by
  unfold DotDims.rhsIdx
  rw [dif_neg (show ¬(1 : Fin S2048x100.rank) ∈ dot_S2048x100_S2048x100_S100x100_0_0_1_1_n_n.rhsBatch by decide), dif_pos (show (1 : Fin S2048x100.rank) ∈ dot_S2048x100_S2048x100_S100x100_0_0_1_1_n_n.rhsNonContracting by decide)]
  rfl

/-- `(lᵀ · r)[d, e] = ∑ j, l[j, d] · r[j, e]`. -/
theorem gram_apply {φ₁ φ₂ : FTy} (l : FVec Ideal S2048x100 φ₁) (r : FVec Ideal S2048x100 φ₂) (d e : Fin 100) :
    matmul dot_S2048x100_S2048x100_S100x100_0_0_1_1_n_n none l r (constant (F := Ideal) S100x100 .f32 0x00000000#32) (ix2 d e)
      = ∑ j : Fin 2048, l (ix2 j d) * r (ix2 j e) := by
  simp only [matmul]
  rw [Ideal.matmul_constant_zero_apply, ← Equiv.sum_comp (contrEquiv1 dot_S2048x100_S2048x100_S100x100_0_0_1_1_n_n 2048 rfl rfl).symm]
  refine Finset.sum_congr rfl fun k _ => ?_
  have hk := contrEquiv1_symm_val dot_S2048x100_S2048x100_S100x100_0_0_1_1_n_n 2048 rfl rfl k
  have el : dot_S2048x100_S2048x100_S100x100_0_0_1_1_n_n.lhsIdx (ix2 d e) ((contrEquiv1 dot_S2048x100_S2048x100_S100x100_0_0_1_1_n_n 2048 rfl rfl).symm k) = ix2 k d := funext fun a => Fin.ext (by
    match a with
    | ⟨0, _⟩ => exact (lhs_gram_0 _ _).trans hk
    | ⟨1, _⟩ => exact lhs_gram_1 _ _)
  have er : dot_S2048x100_S2048x100_S100x100_0_0_1_1_n_n.rhsIdx (ix2 d e) ((contrEquiv1 dot_S2048x100_S2048x100_S100x100_0_0_1_1_n_n 2048 rfl rfl).symm k) = ix2 k e := funext fun a => Fin.ext (by
    match a with
    | ⟨0, _⟩ => exact (rhs_gram_0 _ _).trans hk
    | ⟨1, _⟩ => exact rhs_gram_1 _ _)
  rw [el, er]

/-! ## The output `q · gram` -/

theorem lhs_out_0 (i : S2048x100.Idx) (q : dot_S2048x100_S100x100_S2048x100_1_0_0_1_n_n.contr.Idx) :
    (dot_S2048x100_S100x100_S2048x100_1_0_0_1_n_n.lhsIdx i q 0).val = (i 0).val := by
  unfold DotDims.lhsIdx
  rw [dif_neg (show ¬(0 : Fin S2048x100.rank) ∈ dot_S2048x100_S100x100_S2048x100_1_0_0_1_n_n.lhsBatch by decide), dif_pos (show (0 : Fin S2048x100.rank) ∈ dot_S2048x100_S100x100_S2048x100_1_0_0_1_n_n.lhsNonContracting by decide)]
  rfl
theorem lhs_out_1 (i : S2048x100.Idx) (q : dot_S2048x100_S100x100_S2048x100_1_0_0_1_n_n.contr.Idx) :
    (dot_S2048x100_S100x100_S2048x100_1_0_0_1_n_n.lhsIdx i q 1).val = (q ⟨0, by decide⟩).val :=
  dot_S2048x100_S100x100_S2048x100_1_0_0_1_n_n.lhsIdx_val_of_single rfl i q
theorem rhs_out_0 (i : S2048x100.Idx) (q : dot_S2048x100_S100x100_S2048x100_1_0_0_1_n_n.contr.Idx) :
    (dot_S2048x100_S100x100_S2048x100_1_0_0_1_n_n.rhsIdx i q 0).val = (q ⟨0, by decide⟩).val :=
  dot_S2048x100_S100x100_S2048x100_1_0_0_1_n_n.rhsIdx_val_of_single rfl i q
theorem rhs_out_1 (i : S2048x100.Idx) (q : dot_S2048x100_S100x100_S2048x100_1_0_0_1_n_n.contr.Idx) :
    (dot_S2048x100_S100x100_S2048x100_1_0_0_1_n_n.rhsIdx i q 1).val = (i 1).val := by
  unfold DotDims.rhsIdx
  rw [dif_neg (show ¬(1 : Fin S100x100.rank) ∈ dot_S2048x100_S100x100_S2048x100_1_0_0_1_n_n.rhsBatch by decide), dif_pos (show (1 : Fin S100x100.rank) ∈ dot_S2048x100_S100x100_S2048x100_1_0_0_1_n_n.rhsNonContracting by decide)]
  rfl

/-- `(l · r)[s, e] = ∑ d, l[s, d] · r[d, e]`. -/
theorem out_apply {φ₁ φ₂ : FTy} (l : FVec Ideal S2048x100 φ₁) (r : FVec Ideal S100x100 φ₂) (s : Fin 2048) (e : Fin 100) :
    matmul dot_S2048x100_S100x100_S2048x100_1_0_0_1_n_n none l r (constant (F := Ideal) S2048x100 .f32 0x00000000#32) (ix2 s e)
      = ∑ d : Fin 100, l (ix2 s d) * r (ix2 d e) := by
  simp only [matmul]
  rw [Ideal.matmul_constant_zero_apply, ← Equiv.sum_comp (contrEquiv1 dot_S2048x100_S100x100_S2048x100_1_0_0_1_n_n 100 rfl rfl).symm]
  refine Finset.sum_congr rfl fun k _ => ?_
  have hk := contrEquiv1_symm_val dot_S2048x100_S100x100_S2048x100_1_0_0_1_n_n 100 rfl rfl k
  have el : dot_S2048x100_S100x100_S2048x100_1_0_0_1_n_n.lhsIdx (ix2 s e) ((contrEquiv1 dot_S2048x100_S100x100_S2048x100_1_0_0_1_n_n 100 rfl rfl).symm k) = ix2 s k := funext fun a => Fin.ext (by
    match a with
    | ⟨0, _⟩ => exact lhs_out_0 _ _
    | ⟨1, _⟩ => exact (lhs_out_1 _ _).trans hk)
  have er : dot_S2048x100_S100x100_S2048x100_1_0_0_1_n_n.rhsIdx (ix2 s e) ((contrEquiv1 dot_S2048x100_S100x100_S2048x100_1_0_0_1_n_n 100 rfl rfl).symm k) = ix2 k e := funext fun a => Fin.ext (by
    match a with
    | ⟨0, _⟩ => exact (rhs_out_0 _ _).trans hk
    | ⟨1, _⟩ => exact rhs_out_1 _ _)
  rw [el, er]

end Cert.KernelIdeal.Products

end
-- ==== Proof.Body.lean ====
/-
  One entry of what the kernel body stores for a batch block, as a formula of the three loaded blocks
  (the hidden-state block `x0 : [1, 2048, 100]`, the weight `x1 : [100, 100]`, the bias row `x2 : [1, 100]`):
      stored[0, s, e] = ∑ d, (∑ k, x0[0, s, k] · x1[d, k] + x2[0, d]) · (∑ j, x0[0, j, d] · x0[0, j, e]).
  The body drops the block's unit batch axis, narrows operands to bf16 (the identity on exact values), forms the query
  projection plus the broadcast bias row, the Gram matrix, their product, and restores the unit axis.
-/
import proofs.«168941_j69063074120430_1_alg».proof.Proof.Gen.KernelIdeal.Skeleton
import proofs.«168941_j69063074120430_1_alg».proof.Proof.Products
import Idealize.ShloMosaic.Lib.Pipeline.Value
import Idealize.ShloMosaic.Lib.ValueIdx

noncomputable section

namespace Cert.KernelIdeal.Body

open Cert.KernelIdeal Cert.KernelIdeal.Gen Cert.KernelIdeal.Products Idealize.ShloMosaic Idealize.ShloMosaic.ValueIdx

/-- The block with its unit batch axis dropped, read at row `s`, column `k`. -/
theorem hid_row (x0 : Vec Ideal S1x2048x100 .f32) (s : Fin 2048) (k : Fin 100) :
    shapeCast S2048x100 x0 shapeCasts_S1x2048x100_S2048x100 (ix2 s k) = x0 (ix3 (0 : Fin 1) s k) := by
  refine (shapeCast_dropUnit_apply ![2048, 100] x0 shapeCasts_S1x2048x100_S2048x100 (ix2 s k)).trans ?_
  refine congrArg x0 (funext fun a => ?_)
  match a with
  | ⟨0, _⟩ => rfl
  | ⟨1, _⟩ => rfl
  | ⟨2, _⟩ => rfl

/-- The bias row broadcast down the 2048 rows, read at row `s`, column `d`: the row's entry `d`. -/
theorem bias_row (x2 : Vec Ideal S1x100 .f32) (s : Fin 2048) (d : Fin 100) :
    broadcastTo S2048x100 (shapeCast S1x100 x2 shapeCasts_S1x100_S1x100) broadcasts_S1x100_S2048x100 (ix2 s d)
      = x2 (ix2 (0 : Fin 1) d) := by
  rw [shapeCast_self]
  exact broadcastTo_apply x2 broadcasts_S1x100_S2048x100 (ix2 s d) (ix2 (0 : Fin 1) d) (fun a => match a with
    | ⟨0, _⟩ => by show 0 = if (1 : Nat) = 1 then 0 else s.val; rw [if_pos rfl]
    | ⟨1, _⟩ => by show d.val = if (100 : Nat) = 1 then 0 else d.val; rw [if_neg (by decide)])

/-- Dropping the leading coordinate of `(0, s, e)` leaves `(s, e)`. -/
theorem tail_eq (s : Fin 2048) (e : Fin 100) :
    (fun a : Fin 2 => (ix3 (0 : Fin 1) s e) a.succ) = ix2 s e :=
  funext fun a => match a with
    | ⟨0, _⟩ => rfl
    | ⟨1, _⟩ => rfl

/-- The query row entry: projection plus bias, narrowed. -/
theorem query_entry (H : FVec Ideal S2048x100 .f32) (W : FVec Ideal S100x100 .f32) (B : FVec Ideal S2048x100 .f32)
    (s : Fin 2048) (d : Fin 100) :
    (truncf .bf16 (addf (matmul dot_S2048x100_S100x100_S2048x100_1_1_0_0_n_n none (truncf .bf16 H bitsLt_bf16_f32)
        (truncf .bf16 W bitsLt_bf16_f32) (constant (F := Ideal) S2048x100 .f32 0x00000000#32)) B) bitsLt_bf16_f32) (ix2 s d)
      = (∑ k : Fin 100, H (ix2 s k) * W (ix2 d k)) + B (ix2 s d) := by
  show matmul dot_S2048x100_S100x100_S2048x100_1_1_0_0_n_n none (truncf .bf16 H bitsLt_bf16_f32)
      (truncf .bf16 W bitsLt_bf16_f32) (constant (F := Ideal) S2048x100 .f32 0x00000000#32) (ix2 s d) + B (ix2 s d) = _
  rw [proj_apply]
  rfl

/-- The Gram matrix entry, narrowed. -/
theorem gram_entry (H : FVec Ideal S2048x100 .f32) (d e : Fin 100) :
    (truncf .bf16 (matmul dot_S2048x100_S2048x100_S100x100_0_0_1_1_n_n none (truncf .bf16 H bitsLt_bf16_f32)
        (truncf .bf16 H bitsLt_bf16_f32) (constant (F := Ideal) S100x100 .f32 0x00000000#32)) bitsLt_bf16_f32) (ix2 d e)
      = ∑ j : Fin 2048, H (ix2 j d) * H (ix2 j e) := by
  show matmul dot_S2048x100_S2048x100_S100x100_0_0_1_1_n_n none (truncf .bf16 H bitsLt_bf16_f32)
      (truncf .bf16 H bitsLt_bf16_f32) (constant (F := Ideal) S100x100 .f32 0x00000000#32) (ix2 d e) = _
  rw [gram_apply]
  rfl

/-- The body's arithmetic on the [2048, 100] matrix `H`, the weight `W` and the broadcast bias `B`, at entry `(s, e)`. -/
theorem product_entry (H : FVec Ideal S2048x100 .f32) (W : FVec Ideal S100x100 .f32) (B : FVec Ideal S2048x100 .f32)
    (s : Fin 2048) (e : Fin 100) :
    matmul dot_S2048x100_S100x100_S2048x100_1_0_0_1_n_n none
        (truncf .bf16 (addf (matmul dot_S2048x100_S100x100_S2048x100_1_1_0_0_n_n none (truncf .bf16 H bitsLt_bf16_f32)
          (truncf .bf16 W bitsLt_bf16_f32) (constant (F := Ideal) S2048x100 .f32 0x00000000#32)) B) bitsLt_bf16_f32)
        (truncf .bf16 (matmul dot_S2048x100_S2048x100_S100x100_0_0_1_1_n_n none (truncf .bf16 H bitsLt_bf16_f32)
          (truncf .bf16 H bitsLt_bf16_f32) (constant (F := Ideal) S100x100 .f32 0x00000000#32)) bitsLt_bf16_f32)
        (constant (F := Ideal) S2048x100 .f32 0x00000000#32) (ix2 s e)
      = ∑ d : Fin 100, ((∑ k : Fin 100, H (ix2 s k) * W (ix2 d k)) + B (ix2 s d)) * ∑ j : Fin 2048, H (ix2 j d) * H (ix2 j e) := by
  rw [out_apply]
  refine Finset.sum_congr rfl fun d _ => ?_
  rw [query_entry, gram_entry]

/-- THE STORED ENTRY: the body's payload at `(0, s, e)` of the three loaded blocks. -/
theorem payload_apply (x0 : Vec Ideal S1x2048x100 .f32) (x1 : Vec Ideal S100x100 .f32) (x2 : Vec Ideal S1x100 .f32)
    (s : Fin 2048) (e : Fin 100) :
    k0_pay1 (F := Ideal) x0 x1 x2 (ix3 (0 : Fin 1) s e)
      = ∑ d : Fin 100, ((∑ k : Fin 100, x0 (ix3 (0 : Fin 1) s k) * x1 (ix2 d k)) + x2 (ix2 (0 : Fin 1) d))
          * ∑ j : Fin 2048, x0 (ix3 (0 : Fin 1) j d) * x0 (ix3 (0 : Fin 1) j e) := by
  unfold k0_pay1
  refine (shapeCast_addUnit_apply ![2048, 100] _ shapeCasts_S2048x100_S1x2048x100 (ix3 (0 : Fin 1) s e)).trans ?_
  refine (congrArg _ (tail_eq s e)).trans ?_
  refine (product_entry _ _ _ s e).trans ?_
  refine Finset.sum_congr rfl fun d _ => ?_
  refine congrArg₂ (· * ·) (congrArg₂ (· + ·) (Finset.sum_congr rfl fun k _ => congrArg (· * x1 (ix2 d k)) (hid_row x0 s k))
    (bias_row x2 s d)) (Finset.sum_congr rfl fun j _ => congrArg₂ (· * ·) (hid_row x0 j d) (hid_row x0 j e))

end Cert.KernelIdeal.Body

end
-- ==== Proof.Regroup.lean ====
/-
  Regrouping a product of three matrices on the extended reals.

  For a row `q` (indexed by the hidden axis) and a matrix `h` (rows indexed by the sequence axis, columns by the hidden
  axis), the row `(q · hᵀ) · h` equals the row `q · (hᵀ · h)`:
      ∑ j, (∑ d, q d * h j d) * h j e  =  ∑ d, q d * (∑ j, h j d * h j e).
  On the extended reals multiplication does not distribute over sums when an infinity is present, so the law is stated for
  entries that are real numbers: every entry is replaced by its real value, the coercion is pushed outward through the
  products and the finite sums, and the identity is the one of real algebra (distribute, swap the two sums, reassociate).
-/
import Idealize.ShloMosaic.PureOps.Ideal

namespace Cert.Regroup

open scoped BigOperators

/-- The coercion of the reals into the extended reals commutes with a finite sum. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An affine form `∑ k, x k * w k + b` of real entries is a real number. -/
theorem real_affine {κ : Type} [Fintype κ] (x w : κ → EReal) (b : EReal)
    (hx : ∀ k, ∃ r : ℝ, x k = r) (hw : ∀ k, ∃ r : ℝ, w k = r) (hb : ∃ r : ℝ, b = r) :
    ∃ r : ℝ, (∑ k, x k * w k) + b = r := by
  choose x' hx' using hx
  choose w' hw' using hw
  obtain ⟨b', rfl⟩ := hb
  refine ⟨(∑ k, x' k * w' k) + b', ?_⟩
  simp only [hx', hw', ← EReal.coe_mul, ← coe_sum, ← EReal.coe_add]

/-- `(q · hᵀ) · h = q · (hᵀ · h)`, one output column `e` at a time, for real entries. -/
theorem scores_values_eq_query_gram {ι κ : Type} [Fintype ι] [Fintype κ]
    (q : κ → EReal) (h : ι → κ → EReal)
    (hq : ∀ d, ∃ r : ℝ, q d = r) (hh : ∀ j d, ∃ r : ℝ, h j d = r) (e : κ) :
    ∑ j, (∑ d, q d * h j d) * h j e = ∑ d, q d * ∑ j, h j d * h j e := by
  choose q' hq' using hq
  choose h' hh' using hh
  simp only [hq', hh', ← EReal.coe_mul, ← coe_sum]
  refine congrArg (fun r : ℝ => (r : EReal)) ?_
  simp only [Finset.sum_mul, Finset.mul_sum]
  rw [Finset.sum_comm]
  exact Finset.sum_congr rfl fun d _ => Finset.sum_congr rfl fun j _ => by ring

end Cert.Regroup
-- ==== Proof.Attention.lean ====
/-
  The function both programs compute, per batch `b`, from the gathered hidden states `h[b] : [2048, 100]`, the query
  weight `W : [100, 100]` and its bias:
      q[s, o]   = ∑ k, h[b, s, k] · W[o, k] + bias[o]                      (the query projection, `h · Wᵀ + bias`)
      out[s, e] = ∑ j, (∑ d, q[s, d] · h[b, j, d]) · h[b, j, e]            (scores `q · hᵀ` first, then `scores · h`)
                = ∑ d, q[s, d] · (∑ j, h[b, j, d] · h[b, j, e])            (the Gram matrix `hᵀ · h` first, then `q · gram`)
  The first grouping is the reference's (it materialises the [2048, 2048] score matrix), the second the kernel's (it only
  ever forms the [100, 100] Gram matrix). They agree when every entry is a real number (`Cert.Regroup`).
-/
import Idealize.ShloMosaic.PureOps.Ideal
import Idealize.ShloMosaic.Lib.ValueIdx
import proofs.«168941_j69063074120430_1_alg».proof.Proof.Regroup

noncomputable section

namespace Cert.Attention

open Idealize.ShloMosaic Idealize.ShloMosaic.ValueIdx

/-- The hidden states' shape: batch × sequence × hidden. -/
abbrev Hid : Shape := ⟨3, ![32, 2048, 100]⟩
/-- The query weight's shape: output feature × input feature. -/
abbrev Wgt : Shape := ⟨2, ![100, 100]⟩

/-- The query projection `h · Wᵀ + bias` at batch `b`, position `s`, output feature `o`. -/
def query (h : Hid.Idx → EReal) (W : Wgt.Idx → EReal) (bias : Fin 100 → EReal) (b : Fin 32) (s : Fin 2048) (o : Fin 100) : EReal :=
  (∑ k : Fin 100, h (ix3 b s k) * W (ix2 o k)) + bias o

/-- Scores first: `(q · hᵀ) · h`. -/
def viaScores (h : Hid.Idx → EReal) (W : Wgt.Idx → EReal) (bias : Fin 100 → EReal) : Hid.Idx → EReal := fun i =>
  ∑ j : Fin 2048, (∑ d : Fin 100, query h W bias (i 0) (i 1) d * h (ix3 (i 0) j d)) * h (ix3 (i 0) j (i 2))

/-- Gram matrix first: `q · (hᵀ · h)`. -/
def viaGram (h : Hid.Idx → EReal) (W : Wgt.Idx → EReal) (bias : Fin 100 → EReal) : Hid.Idx → EReal := fun i =>
  ∑ d : Fin 100, query h W bias (i 0) (i 1) d * ∑ j : Fin 2048, h (ix3 (i 0) j d) * h (ix3 (i 0) j (i 2))

/-- The Gram-first grouping at the entry of coordinates `(b, s, e)`, with the query row written out. -/
theorem viaGram_apply (h : Hid.Idx → EReal) (W : Wgt.Idx → EReal) (bias : Fin 100 → EReal) (b : Fin 32) (s : Fin 2048) (e : Fin 100) :
    viaGram h W bias (ix3 b s e)
      = ∑ d : Fin 100, ((∑ k : Fin 100, h (ix3 b s k) * W (ix2 d k)) + bias d) * ∑ j : Fin 2048, h (ix3 b j d) * h (ix3 b j e) := rfl

/-- The two groupings agree on real entries. -/
theorem viaScores_eq_viaGram (h : Hid.Idx → EReal) (W : Wgt.Idx → EReal) (bias : Fin 100 → EReal)
    (hh : ∀ i, ∃ r : ℝ, h i = r) (hW : ∀ i, ∃ r : ℝ, W i = r) (hb : ∀ o, ∃ r : ℝ, bias o = r) :
    viaScores h W bias = viaGram h W bias := by
  funext i
  exact Cert.Regroup.scores_values_eq_query_gram (fun d => query h W bias (i 0) (i 1) d) (fun j d => h (ix3 (i 0) j d))
    (fun d => Cert.Regroup.real_affine (fun k => h (ix3 (i 0) (i 1) k)) (fun k => W (ix2 d k)) (bias d)
      (fun k => hh _) (fun k => hW _) (hb d))
    (fun j d => hh _) (i 2)

end Cert.Attention

end
-- ==== Proof.Gram.lean ====
/-
  The kernel's output array after the run, as one function of the arrays the region is entered with.

  The grid has one point per batch `t` (32 points). At point `t` the hidden-state window and the output window are at block
  `(t, 0, 0)` of their [32, 2048, 100] arrays — the [1, 2048, 100] slab of batch `t` — and the weight and bias windows are
  their whole arrays at every point. So entry `(0, s, e)` of what point `t` writes back is the Gram-first formula of
  `Attention.viaGram` at `(t, s, e)`; the 32 slabs cover the output array, and the array is `viaGram` everywhere.
  The hidden states the region finds are the host gather `embed[x]` (negative indices wrapped by the vocabulary size, then
  clamped by the gather), and the bias row is the bias vector reshaped to [1, 100].
-/
import proofs.«168941_j69063074120430_1_alg».proof.Proof.Gen.KernelIdeal.Value
import proofs.«168941_j69063074120430_1_alg».proof.Proof.Body
import proofs.«168941_j69063074120430_1_alg».proof.Proof.Attention
import Idealize.ShloMosaic.Lib.StableHlo.Run

set_option maxRecDepth 16384

noncomputable section

namespace Cert.KernelIdeal.Gram

open Cert.KernelIdeal Cert.KernelIdeal.Gen Cert.KernelIdeal.Body Idealize.ShloMosaic Idealize.ShloMosaic.TcCoe Idealize.SL.Sem
open Idealize.ShloMosaic.ValueIdx Idealize.ShloMosaic.StableHlo
open Idealize.ShloMosaic.Pipeline (Dat)
open Cert.Attention

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- The batch a grid point works on. -/
abbrev batchOf (t : Fin cfg0.N) : Fin 32 := ⟨t.val, t.isLt⟩

/-- The printed index maps, decided over the 32 points: hidden states and output at block `(t, 0, 0)`, weight and bias at
    block `(0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The hidden-state block at point `t`, entry `(0, s, k)`: the array's entry `(t, s, k)`. -/
theorem hid_blk (c : Dev nD) (t : Fin cfg0.N) (s : Fin 2048) (k : Fin 100) :
    iblk m c 0 t (ix3 (0 : Fin 1) s k) = V m c main_v6 (ix3 (batchOf t) s k) := by
  obtain ⟨e0, e1, e2, -⟩ := idx_facts t
  show V m c main_v6 (((cfg0.win 0).blk t).view.emb (ix3 (0 : Fin 1) s k)) = _
  refine congrArg (V m c main_v6) (funext fun a => Fin.ext ?_)
  match a with
  | ⟨0, _⟩ => show win0_0.index t (0 : Fin 3) * 1 + 1 * 0 = t.val; omega
  | ⟨1, _⟩ => show win0_0.index t (1 : Fin 3) * 2048 + 1 * s.val = s.val; omega
  | ⟨2, _⟩ => show win0_0.index t (2 : Fin 3) * 100 + 1 * k.val = k.val; omega

/-- The weight block at any point is the weight. -/
theorem wgt_blk (c : Dev nD) (t : Fin cfg0.N) (d k : Fin 100) :
    iblk m c 1 t (ix2 d k) = V m c main_arg2 (ix2 d k) := by
  obtain ⟨-, -, -, e3, e4, -⟩ := idx_facts t
  show V m c main_arg2 (((cfg0.win 1).blk t).view.emb (ix2 d k)) = _
  refine congrArg (V m c main_arg2) (funext fun a => Fin.ext ?_)
  match a with
  | ⟨0, _⟩ => show win0_1.index t (0 : Fin 2) * 100 + 1 * d.val = d.val; omega
  | ⟨1, _⟩ => show win0_1.index t (1 : Fin 2) * 100 + 1 * k.val = k.val; omega

/-- The bias block at any point is the bias row. -/
theorem bias_blk (c : Dev nD) (t : Fin cfg0.N) (d : Fin 100) :
    iblk m c 2 t (ix2 (0 : Fin 1) d) = V m c main_v7 (ix2 (0 : Fin 1) d) := by
  obtain ⟨-, -, -, -, -, e5, e6, -⟩ := idx_facts t
  show V m c main_v7 (((cfg0.win 2).blk t).view.emb (ix2 (0 : Fin 1) d)) = _
  refine congrArg (V m c main_v7) (funext fun a => Fin.ext ?_)
  match a with
  | ⟨0, _⟩ => show win0_2.index t (0 : Fin 2) * 1 + 1 * 0 = 0; omega
  | ⟨1, _⟩ => show win0_2.index t (1 : Fin 2) * 100 + 1 * d.val = d.val; omega

/-- Entry `(0, s, e)` of the output block at point `t` lies at `(t, s, e)` of the output array. -/
theorem out_emb (t : Fin cfg0.N) (s : Fin 2048) (e : Fin 100) :
    ((cfg0.win 3).blk t).view.emb (ix3 (0 : Fin 1) s e) = ix3 (batchOf t) s e := by
  obtain ⟨-, -, -, -, -, -, -, e7, e8, e9⟩ := idx_facts t
  refine funext fun a => Fin.ext ?_
  match a with
  | ⟨0, _⟩ => show win0_3.index t (0 : Fin 3) * 1 + 1 * 0 = t.val; omega
  | ⟨1, _⟩ => show win0_3.index t (1 : Fin 3) * 2048 + 1 * s.val = s.val; omega
  | ⟨2, _⟩ => show win0_3.index t (2 : Fin 3) * 100 + 1 * e.val = e.val; omega

/-- WHAT POINT `t` WRITES BACK is block `t` of the Gram-first function of the arrays the region finds. -/
theorem flushed_eq (c : Dev nD) (t : Fin cfg0.N) :
    (dats m 0 c).flushed 3 t = ((cfg0.win 3).blk t).view.read (Elt Ideal)
      (viaGram (V m c main_v6) (V m c main_arg2) fun o => V m c main_v7 (ix2 (0 : Fin 1) o)) := by
  rw [Cert.KernelIdeal.Value.flushed3]
  unfold out0_3
  rw [View.canon_unit_zero zero3]
  simp only [View.ld_unit_zero (S := S1x2048x100) zero3, View.ld_unit_zero (S := S100x100) zero2, View.ld_unit_zero (S := S1x100) zero2]
  funext y
  have hy0 : (y 0).val < 1 := (y 0).isLt
  obtain ⟨s, e, rfl⟩ : ∃ (s : Fin 2048) (e : Fin 100), y = ix3 (0 : Fin 1) s e :=
    ⟨y 1, y 2, funext fun a => match a with
      | ⟨0, _⟩ => Fin.ext (by show (y 0).val = 0; omega)
      | ⟨1, _⟩ => rfl
      | ⟨2, _⟩ => rfl⟩
  show k0_pay1 (F := Ideal) (iblk m c 0 t) (iblk m c 1 t) (iblk m c 2 t) (ix3 (0 : Fin 1) s e)
    = viaGram (V m c main_v6) (V m c main_arg2) (fun o => V m c main_v7 (ix2 (0 : Fin 1) o)) (((cfg0.win 3).blk t).view.emb (ix3 (0 : Fin 1) s e))
  refine (payload_apply _ _ _ s e).trans ?_
  refine Eq.trans ?_ (congrArg (viaGram (V m c main_v6) (V m c main_arg2) fun o => V m c main_v7 (ix2 (0 : Fin 1) o)) (out_emb t s e)).symm
  refine Eq.trans ?_ (viaGram_apply _ _ _ (batchOf t) s e).symm
  exact Finset.sum_congr rfl fun d _ => congrArg₂ (· * ·)
    (congrArg₂ (· + ·) (Finset.sum_congr rfl fun k _ => congrArg₂ (· * ·) (hid_blk m c t s k) (wgt_blk m c t d k)) (bias_blk m c t d))
    (Finset.sum_congr rfl fun j _ => congrArg₂ (· * ·) (hid_blk m c t j d) (hid_blk m c t j e))

/-- An index of the output array is in point `t`'s block iff each coordinate is in the block's range on its axis. -/
theorem mem_blk (t : Fin cfg0.N) (i : S32x2048x100.Idx) :
    i ∈ ((cfg0.win 3).blk t).view.set ↔ ∀ a : Fin 3, win0_3.index t a * S1x2048x100.size a ≤ (i a).val
      ∧ (i a).val < win0_3.index t a * S1x2048x100.size a + S1x2048x100.size a := by
  show i ∈ ((View.whole main_v8).slice (win0_3.rect t)).set ↔ _
  rw [View.set_slice_whole, Rect.mem_set_unit]
  exact Iff.rfl

/-- Every index of the output array is in the block of the point of its batch. -/
theorem cover (i : S32x2048x100.Idx) :
    ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 100 := (i 2).isLt
  obtain ⟨-, -, -, -, -, -, -, e7, e8, e9⟩ := idx_facts (⟨(i 0).val, hi0⟩ : Fin cfg0.N)
  have e7' : win0_3.index (⟨(i 0).val, hi0⟩ : Fin cfg0.N) (0 : Fin 3) = (i 0).val := e7
  refine ⟨⟨(i 0).val, hi0⟩, flush0_3 _, ?_⟩
  rw [mem_blk]
  intro a
  match a with
  | ⟨0, _⟩ => show win0_3.index (⟨(i 0).val, hi0⟩ : Fin cfg0.N) (0 : Fin 3) * 1 ≤ (i 0).val ∧ (i 0).val < win0_3.index (⟨(i 0).val, hi0⟩ : Fin cfg0.N) (0 : Fin 3) * 1 + 1; omega
  | ⟨1, _⟩ => show win0_3.index (⟨(i 0).val, hi0⟩ : Fin cfg0.N) (1 : Fin 3) * 2048 ≤ (i 1).val ∧ (i 1).val < win0_3.index (⟨(i 0).val, hi0⟩ : Fin cfg0.N) (1 : Fin 3) * 2048 + 2048; omega
  | ⟨2, _⟩ => show win0_3.index (⟨(i 0).val, hi0⟩ : Fin cfg0.N) (2 : Fin 3) * 100 ≤ (i 2).val ∧ (i 2).val < win0_3.index (⟨(i 0).val, hi0⟩ : Fin cfg0.N) (2 : Fin 3) * 100 + 100; omega

/-- THE OUTPUT ARRAY after the run is the Gram-first function of the arrays the region finds. -/
theorem final (c : Dev nD) :
    (dats m 0 c).arrAt 3 cfg0.N = viaGram (V m c main_v6) (V m c main_arg2) fun o => V m c main_v7 (ix2 (0 : Fin 1) o) :=
  (dats m 0 c).arrAt_eq_of_cover 3 _ (fun t _ => flushed_eq m c t) cover

/-! ## The arrays the region finds, from the arguments -/

/-- The embedding lookup `embed[x]` as the host computes it: an index below zero has the vocabulary size added, and the
    gather reads the table's row at the index (clamped into the table). -/
def lookup (x : IVec S32x2048 32) (embed : FVec Ideal S50000x100 .f32) : FVec Ideal S32x2048x100 .f32 :=
  Host.gather gather_S50000x100_S32x2048x1_S32x2048x100_2_0_n_n_0_2_1100 embed
    (broadcastInDim S32x2048x1 ![0, 1] bcast_S32x2048_S32x2048x1_0_1
      (select (cmpi .slt x (broadcastInDim S32x2048 ![] bcast_S_S32x2048 (constantI S_ 32 0#32)))
        (addi x (broadcastInDim S32x2048 ![] bcast_S_S32x2048 (constantI S_ 32 50000#32))) x))

/-- The hidden states the region finds are the lookup of the arguments. -/
theorem hidden_eq (c : Dev nD) :
    (V m c main_v6 : S32x2048x100.Idx → EReal)
      = lookup (m ((c : Thread nD τ).loc main_arg0)) (m ((c : Thread nD τ).loc main_arg1)) := by
  dsimp only [V, hostOps0]
  after_results
  rfl

/-- The bias row the region finds is the bias vector. -/
theorem bias_eq (c : Dev nD) (o : Fin 100) :
    V m c main_v7 (ix2 (0 : Fin 1) o) = m ((c : Thread nD τ).loc main_arg3) (ix1 o) := by
  have e : (V m c main_v7 : S1x100.Idx → EReal)
      = shapeCast S1x100 (m ((c : Thread nD τ).loc main_arg3)) shapeCasts_S100_S1x100 := by
    dsimp only [V, hostOps0]
    after_results
    rfl
  refine (congrFun e _).trans ?_
  refine (shapeCast_addUnit_apply ![100] _ shapeCasts_S100_S1x100 (ix2 (0 : Fin 1) o)).trans ?_
  refine congrArg _ (funext fun a => ?_)
  match a with
  | ⟨0, _⟩ => rfl

/-- THE KERNEL'S RUN: every weakly fair execution terminates with the output at the Gram-first function of the arguments
    (the looked-up hidden states, the weight, the bias), the arguments unchanged. -/
theorem run : θ_run defs (onTc (τ := τ) (main (F := Ideal))) ⟨m, fun _ => 0, ρ⟩ fun r => ∀ c : Dev nD,
      r.2.mem ((c : Thread nD τ).loc main_v8)
        = viaGram (lookup (m ((c : Thread nD τ).loc main_arg0)) (m ((c : Thread nD τ).loc main_arg1)))
            (m ((c : Thread nD τ).loc main_arg2)) (fun o => m ((c : Thread nD τ).loc main_arg3) (ix1 o))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (by
      rw [hidden_eq m c, V_main_arg2 m c]
      exact congrArg _ (funext fun o => bias_eq m c o))), (h c).2⟩)
    (Cert.KernelIdeal.Value.run_blocks m ρ)

end Cert.KernelIdeal.Gram

end
-- ==== Proof.Scores.lean ====
/-
  The reference's result, read entry by entry, is the scores-first grouping `(q · hᵀ) · h` of the gathered hidden states
  `h = embed[x]`, the weight and the bias: its last product sums over the 2048 sequence positions `j` the score
  `∑ d, q[b, i, d] · h[b, j, d]` times `h[b, j, e]`, and `q` is the projection `∑ k, h[b, i, k] · W[d, k]` plus the bias
  broadcast along batch and sequence. Each operation's entry is taken from the reference's read-at-an-index lemmas; what is
  done here is to identify the operand indices those lemmas compose with the plain coordinates `(b, i, k)`, `(d, k)`, `(d)`.
-/
import proofs.«168941_j69063074120430_1_alg».proof.Proof.Gen.ReferenceIdeal.Read
import proofs.«168941_j69063074120430_1_alg».proof.Proof.Attention

noncomputable section

namespace Cert.ReferenceIdeal.Scores

open Cert.ReferenceIdeal Cert.ReferenceIdeal.Gen Cert.ReferenceIdeal.Read Idealize.ShloMosaic Idealize.ShloMosaic.ValueIdx
open Cert.Attention

/-- The query projection's entry: the reference's sum plus its doubly broadcast bias is `Attention.query`. -/
theorem query_eq (x0 : (⟨S32x2048, .i32⟩ : BufTy).Contents (Elt Ideal)) (x1 : (⟨S50000x100, .f32⟩ : BufTy).Contents (Elt Ideal))
    (x2 : (⟨S100x100, .f32⟩ : BufTy).Contents (Elt Ideal)) (x3 : (⟨S100, .f32⟩ : BufTy).Contents (Elt Ideal))
    (i : S32x2048x100.Idx) (j : Fin 2048) (d : Fin 100) :
    val_main_v10 (F := Ideal) x0 x1 x2 x3 (lidx_main_v11 (lidx_main_v12 i j) d)
      = query (val_main_v6 (F := Ideal) x0 x1) x2 (fun o => x3 (ix1 o)) (i 0) (i 1) d := by
  rw [val_main_v10_apply, val_main_v7_apply, val_main_v9_apply, val_main_v8_apply, Ideal.addf_def]
  unfold query
  refine congrArg₂ (· + ·) (Finset.sum_congr rfl fun k _ => congrArg₂ (· * ·) (congrArg _ ?_) (congrArg _ ?_)) (congrArg _ ?_)
  · funext a
    match a with
    | ⟨0, _⟩ => rfl
    | ⟨1, _⟩ => rfl
    | ⟨2, _⟩ => rfl
  · funext a
    match a with
    | ⟨0, _⟩ => rfl
    | ⟨1, _⟩ => rfl
  · funext a
    match a with
    | ⟨0, _⟩ => rfl

/-- THE REFERENCE'S RESULT is the scores-first grouping of the gathered hidden states. -/
theorem result_eq_viaScores (x0 : (⟨S32x2048, .i32⟩ : BufTy).Contents (Elt Ideal)) (x1 : (⟨S50000x100, .f32⟩ : BufTy).Contents (Elt Ideal))
    (x2 : (⟨S100x100, .f32⟩ : BufTy).Contents (Elt Ideal)) (x3 : (⟨S100, .f32⟩ : BufTy).Contents (Elt Ideal)) :
    val_main_v12 (F := Ideal) x0 x1 x2 x3 = viaScores (val_main_v6 (F := Ideal) x0 x1) x2 (fun o => x3 (ix1 o)) := by
  funext i
  rw [val_main_v12_apply]
  unfold viaScores
  refine Finset.sum_congr rfl fun j _ => ?_
  rw [val_main_v11_apply]
  refine congrArg₂ (· * ·) (Finset.sum_congr rfl fun d _ => congrArg₂ (· * ·) (query_eq x0 x1 x2 x3 i j d) (congrArg _ ?_)) (congrArg _ ?_)
  · funext a
    match a with
    | ⟨0, _⟩ => rfl
    | ⟨1, _⟩ => rfl
    | ⟨2, _⟩ => rfl
  · funext a
    match a with
    | ⟨0, _⟩ => rfl
    | ⟨1, _⟩ => rfl
    | ⟨2, _⟩ => rfl

end Cert.ReferenceIdeal.Scores

end
-- ==== Proof.Finite.lean ====
/-
  What the precondition says: every entry of the three float inputs (the embedding table, the query weight, the bias) is a
  real number. The printed predicate is the conjunction of three `all(|x| < +∞)`; each `all` is an and-reduction that is 1
  only if every compared entry is 1, and an extended real whose absolute value `max x (-x)` is strictly below `+∞` is
  neither infinity, hence a real.
-/
import proofs.«168941_j69063074120430_1_alg».proof.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.Pre_finite_inputs.Reals

open Cert.Pre_finite_inputs Idealize.ShloMosaic

instance : Subsingleton S_.Idx := ⟨fun _ _ => funext fun d => d.elim0⟩

/-- The word `0x7F800000` is `+∞`. -/
theorem inf_word : Ideal.ofBits .f32 0x7F800000#32 = ⊤ := by simp [Ideal.ofBits, Ideal.ieee]

/-- An extended real with `|x| < +∞` is a real number. -/
theorem real_of_abs_lt_top (x : EReal) (h : max x (-x) < ⊤) : ∃ r : ℝ, x = r := by
  induction x using EReal.rec with
  | bot => simp at h
  | coe r => exact ⟨r, rfl⟩
  | top => simp at h

/-- The same from the comparison's bit. -/
theorem real_of_cmp (x : EReal)
    (h : FloatOps.cmpf (F := Ideal) (φ := .f32) .olt (FloatOps.hostAbsf (F := Ideal) (φ := .f32) x) (Ideal.ofBits .f32 0x7F800000#32) = 1#1) :
    ∃ r : ℝ, x = r := by
  rw [Ideal.cmpf_def, Ideal.hostAbsf_def, Ideal.absf_def, inf_word] at h
  refine real_of_abs_lt_top x ?_
  by_contra hn
  simp [Ideal.cmp, hn] at h

variable [Facts]
open Facts

/-- THE PRECONDITION, READ: all three float inputs have real entries. -/
theorem reals_of_pre (x0 : IVec S32x2048 32) (x1 : FVec Ideal S50000x100 .f32) (x2 : FVec Ideal S100x100 .f32)
    (x3 : FVec Ideal S100 .f32) (h : fn (F := Ideal) x0 x1 x2 x3 = fun _ => 1#1) :
    (∀ i, ∃ r : ℝ, x1 i = r) ∧ (∀ i, ∃ r : ℝ, x2 i = r) ∧ (∀ i, ∃ r : ℝ, x3 i = r) := by
  have h0 := congrFun h ValueIdx.ix0
  dsimp only [fn] at h0
  obtain ⟨h12, h3⟩ := IntOp.andi_eq_one.1 h0
  obtain ⟨h1, h2⟩ := IntOp.andi_eq_one.1 h12
  exact ⟨fun i => real_of_cmp _ (Host.reduce_andi_all _ _ _ _ _ h1 i),
    fun i => real_of_cmp _ (Host.reduce_andi_all _ _ _ _ _ h2 i),
    fun i => real_of_cmp _ (Host.reduce_andi_all _ _ _ _ _ h3 i)⟩

end Cert.Pre_finite_inputs.Reals

end
-- ==== Proof.lean ====
/-
  A softmax-free attention layer over an embedding lookup, per batch `b` of 32, sequence length 2048, hidden size 100:
      h = embed[x],   q = h · Wqᵀ + bq,   out = (q · hᵀ) · h.
  The reference forms the [2048, 2048] score matrix `q · hᵀ` and multiplies it by `h`. The kernel gathers `h` on the host
  exactly as the reference does and, in one grid point per batch, forms the [100, 100] Gram matrix `hᵀ · h` and returns
  `q · (hᵀ · h)`; its narrowing of the matrix operands to bf16 is the identity on exact values.

  The two results are equal entry by entry,
      ∑ j, (∑ d, q[s, d] · h[j, d]) · h[j, e]  =  ∑ d, q[s, d] · (∑ j, h[j, d] · h[j, e]),
  by distributing, exchanging the two finite sums and reassociating — valid on the extended reals because every entry is a
  real number: the precondition makes the embedding table, the weight and the bias finite, every gathered entry is an entry
  of the table whatever the index, and `q` is a finite sum of products of reals plus a real.

  Modules: `Regroup` (the law on extended reals with real entries), `Attention` (the two groupings as functions of `h`, the weight and
  the bias, and their equality), `Scores` (the reference's result is the scores-first grouping), `Products` and `Body` (the
  kernel body's three matrix products and its stored entry), `Gram` (the kernel's output array is the Gram-first grouping),
  `Finite` (the precondition read as "every entry is real"). The kernel's and the reference's runs and the three frames are the
  generated modules'. The idealized kernel is the kernel's own text read at exact values, so there is nothing to preserve.
-/
import proofs.«168941_j69063074120430_1_alg».proof.Defs
import proofs.«168941_j69063074120430_1_alg».proof.Proof.Gen.Kernel
import proofs.«168941_j69063074120430_1_alg».proof.Proof.Gen.Kernel.Skeleton
import proofs.«168941_j69063074120430_1_alg».proof.Proof.Gen.Kernel.Launch
import proofs.«168941_j69063074120430_1_alg».proof.Proof.Gen.Kernel.Points
import proofs.«168941_j69063074120430_1_alg».proof.Proof.Gen.Kernel.Frame
import proofs.«168941_j69063074120430_1_alg».proof.Proof.Gen.KernelIdeal
import proofs.«168941_j69063074120430_1_alg».proof.Proof.Gen.KernelIdeal.Skeleton
import proofs.«168941_j69063074120430_1_alg».proof.Proof.Gen.KernelIdeal.Launch
import proofs.«168941_j69063074120430_1_alg».proof.Proof.Gen.KernelIdeal.Points
import proofs.«168941_j69063074120430_1_alg».proof.Proof.Gen.KernelIdeal.Frame
import proofs.«168941_j69063074120430_1_alg».proof.Proof.Gen.ReferenceIdeal
import proofs.«168941_j69063074120430_1_alg».proof.Proof.Gen.Pre_finite_inputs
import proofs.«168941_j69063074120430_1_alg».proof.Proof.Gen.KernelIdeal.Value
import proofs.«168941_j69063074120430_1_alg».proof.Proof.Gen.ReferenceIdeal.Run
import proofs.«168941_j69063074120430_1_alg».proof.Proof.Gen.ReferenceIdeal.Read
import proofs.«168941_j69063074120430_1_alg».proof.Proof.Gram
import proofs.«168941_j69063074120430_1_alg».proof.Proof.Scores
import proofs.«168941_j69063074120430_1_alg».proof.Proof.Finite
import Idealize.ShloMosaic.Adequacy
import Idealize.ShloMosaic.Init

noncomputable section

namespace Cert.Proof

open Idealize.ShloMosaic Idealize.ShloMosaic.TcCoe Idealize.SL.Sem

/-- The reference's and the kernel's embedding lookups are one function of the indices and the table: the same host
    operations, printed once in each program. -/
theorem lookup_eq (x : IVec Cert.KernelIdeal.S32x2048 32) (embed : FVec Ideal Cert.KernelIdeal.S50000x100 .f32) :
    Cert.ReferenceIdeal.Read.val_main_v6 (F := Ideal) x embed = Cert.KernelIdeal.Gram.lookup x embed := rfl

/-- Every looked-up entry is an entry of the table, so it is real when the table's entries are. -/
theorem lookup_real (x : IVec Cert.KernelIdeal.S32x2048 32) (embed : FVec Ideal Cert.KernelIdeal.S50000x100 .f32)
    (hE : ∀ i, ∃ r : ℝ, embed i = r) (i : Cert.KernelIdeal.S32x2048x100.Idx) :
    ∃ r : ℝ, Cert.KernelIdeal.Gram.lookup x embed i = r := by
  unfold Cert.KernelIdeal.Gram.lookup Host.gather
  exact hE _

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The kernel ends at the Gram-first grouping and the reference at the scores-first grouping of the same looked-up hidden
    states, weight and bias; on real entries they are one function. -/
theorem algebraic : Cert.algebraic_KernelIdeal_ReferenceIdeal := by
  intro m ρ m' ρ' hpre hagree
  refine ⟨_, Cert.KernelIdeal.Gram.run m ρ, ?_⟩
  refine (θ_run Cert.ReferenceIdeal.defs _ _).mono (fun _ h c => ⟨(h c).1.trans ?_, (h c).2⟩)
    (Cert.ReferenceIdeal.Value.run (F := Ideal) m' ρ')
  obtain ⟨hE, hW, hB⟩ := Cert.Pre_finite_inputs.Reals.reals_of_pre _ _ _ _ (hpre c)
  rw [Cert.ReferenceIdeal.Read.val_main_v12_eq, Cert.ReferenceIdeal.Scores.result_eq_viaScores,
    (hagree c).1, (hagree c).2.1, (hagree c).2.2.1, (hagree c).2.2.2, lookup_eq]
  exact Cert.Attention.viaScores_eq_viaGram _ _ _ (lookup_real _ _ hE) hW (fun o => hB _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
